-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S512x64x16x128x2 : Shape := ⟨5, ![512, 64, 16, 128, 2]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S512x64x16x128x2 : S_.BroadcastsInDim S512x64x16x128x2 (![] : Fin 0 → Fin S512x64x16x128x2.rank)
  reducesTo_S512x64x16x128x2_S_d0_1_2_3_4 : S512x64x16x128x2.ReducesTo [0, 1, 2, 3, 4] S_

variable [Facts]

def fn {F : FTy → Type} [FloatOps F] (main_arg0 : FVec F S512x128 .f32) (main_arg1 : FVec F S512x64x16x128x2 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x64x16x128x2 .f32 := Host.absf main_arg1
  let main_cst_0 : FVec F S_ .f32 := constant S_ .f32 0x7F800000#32
  let main_v5 : FVec F S512x64x16x128x2 .f32 := broadcastInDim S512x64x16x128x2 ![] bcast_S_S512x64x16x128x2 main_cst_0
  let main_v6 : IVec S512x64x16x128x2 1 := cmpf .olt main_v4 main_v5
  let main_c_1 : IVec S_ 1 := constantI S_ 1 1#1
  let main_v7 : IVec S_ 1 := (fun x v => Host.reduce IntOp.andi x v reducesTo_S512x64x16x128x2_S_d0_1_2_3_4 h_S_) main_v6 main_c_1
  let main_v8 : IVec S_ 1 := andi main_v3 main_v7
  main_v8
-- ==== Kernel.lean ====
abbrev S512x128 : Shape := ⟨2, ![512, 128]⟩
abbrev S512x64x16x128x2 : Shape := ⟨5, ![512, 64, 16, 128, 2]⟩
abbrev S512x64x16x256 : Shape := ⟨4, ![512, 64, 16, 256]⟩
abbrev S512x128x2 : Shape := ⟨3, ![512, 128, 2]⟩
abbrev S512x256 : Shape := ⟨2, ![512, 256]⟩
abbrev S512x64x16 : Shape := ⟨3, ![512, 64, 16]⟩
abbrev S32x256 : Shape := ⟨2, ![32, 256]⟩
abbrev S32x8x16x256 : Shape := ⟨4, ![32, 8, 16, 256]⟩
abbrev S32x8x16 : Shape := ⟨3, ![32, 8, 16]⟩
abbrev S32x1x1x256 : Shape := ⟨4, ![32, 1, 1, 256]⟩

abbrev nBuf : Space → Nat
  | .hbm => 6
  | .vmem => 6
  | .smem => 0
  | _ => 0

abbrev bufTy : (tb : Table) → Fin (tcTables nBuf tb) → BufTy
  | .hbm, ⟨0, _⟩ => ⟨S512x128, .f32⟩
  | .hbm, ⟨1, _⟩ => ⟨S512x64x16x128x2, .f32⟩
  | .hbm, ⟨2, _⟩ => ⟨S512x64x16x256, .f32⟩
  | .hbm, ⟨3, _⟩ => ⟨S512x128x2, .f32⟩
  | .hbm, ⟨4, _⟩ => ⟨S512x256, .f32⟩
  | .hbm, ⟨5, _⟩ => ⟨S512x64x16, .f32⟩
  | .local _ .vmem, ⟨0, _⟩ => ⟨S32x256, .f32⟩
  | .local _ .vmem, ⟨1, _⟩ => ⟨S32x256, .f32⟩
  | .local _ .vmem, ⟨2, _⟩ => ⟨S32x8x16x256, .f32⟩
  | .local _ .vmem, ⟨3, _⟩ => ⟨S32x8x16x256, .f32⟩
  | .local _ .vmem, ⟨4, _⟩ => ⟨S32x8x16, .f32⟩
  | .local _ .vmem, ⟨5, _⟩ => ⟨S32x8x16, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x8x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x8x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S512x64x16x128x2_S512x64x16x256 : S512x64x16x128x2.ShapeCasts S512x64x16x256
  bcast_S512x128_S512x128x2_0_1 : S512x128.BroadcastsInDim S512x128x2 (![0, 1] : Fin 2 → Fin S512x128x2.rank)
  shapeCasts_S512x128x2_S512x256 : S512x128x2.ShapeCasts S512x256
  inb_S32x8x16x256_S32x8x16x256_0_0_0_0 : ∀ a, (![0, 0, 0, 0] : Fin 4 → Nat) a + S32x8x16x256.size a ≤ S32x8x16x256.size a
  h_S32x8x16x256 : 0 < S32x8x16x256.numel
  shapeCasts_S32x8x16x256_S32x8x16x256 : S32x8x16x256.ShapeCasts S32x8x16x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  shapeCasts_S32x256_S32x1x1x256 : S32x256.ShapeCasts S32x1x1x256
  broadcasts_S32x1x1x256_S32x8x16x256 : S32x1x1x256.Broadcasts S32x8x16x256
  rotates_S32x8x16x256_d3 : S32x8x16x256.Rotates 3 none
  iota_S32x8x16x256_d3_w32 : S32x8x16x256.Iotas .tc 32 [3]
  reduces_S32x8x16x256_S32x8x16 : S32x8x16x256.Reduces [3] S32x8x16
  inb_S32x8x16_S32x8x16_0_0_0 : ∀ a, (![0, 0, 0] : Fin 3 → Nat) a + S32x8x16.size a ≤ S32x8x16.size a
  h_S32x8x16 : 0 < S32x8x16.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S512x256.size a
  hwx0_0 : ∀ i : grid0.Coords, EltTy.bits .f32 = 32 ∨ (Rect.block (s := S512x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8x16x256.size a ≤ S512x64x16x256.size a
  hwx0_1 : ∀ i : grid0.Coords, EltTy.bits .f32 = 32 ∨ (Rect.block (s := S512x64x16x256) S32x8x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x8x16.size a ≤ S512x64x16.size a
  hwx0_2 : ∀ i : grid0.Coords, EltTy.bits .f32 = 32 ∨ (Rect.block (s := S512x64x16) S32x8x16.size (cc0_transform_2 i) (hinb0_2 i)).WholeWords (EltTy.packing .f32)

variable [Facts₀]

abbrev win0_0 : Pipeline.Window sig grid0 :=
  Pipeline.Window.ofSpec (Memref.whole main_v2) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x8x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x8x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x128 : Shape := ⟨2, ![512, 128]⟩
abbrev S512x64x16x128x2 : Shape := ⟨5, ![512, 64, 16, 128, 2]⟩
abbrev S512x64x16x128x1 : Shape := ⟨5, ![512, 64, 16, 128, 1]⟩
abbrev S512x64x16x128 : Shape := ⟨4, ![512, 64, 16, 128]⟩
abbrev S512x1x1x128 : Shape := ⟨4, ![512, 1, 1, 128]⟩
abbrev S_ : Shape := ⟨0, ![]⟩
abbrev S512x64x16 : Shape := ⟨3, ![512, 64, 16]⟩

abbrev nBuf : Space → Nat
  | .hbm => 18
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x64x16x128x2, .f32⟩
  | .hbm, ⟨2, _⟩ => ⟨S512x64x16x128x1, .f32⟩
  | .hbm, ⟨3, _⟩ => ⟨S512x64x16x128, .f32⟩
  | .hbm, ⟨4, _⟩ => ⟨S512x64x16x128x1, .f32⟩
  | .hbm, ⟨5, _⟩ => ⟨S512x64x16x128, .f32⟩
  | .hbm, ⟨6, _⟩ => ⟨S512x1x1x128, .f32⟩
  | .hbm, ⟨7, _⟩ => ⟨S512x64x16x128, .f32⟩
  | .hbm, ⟨8, _⟩ => ⟨S512x64x16x128, .f32⟩
  | .hbm, ⟨9, _⟩ => ⟨S512x64x16x128, .f32⟩
  | .hbm, ⟨10, _⟩ => ⟨S512x64x16x128, .f32⟩
  | .hbm, ⟨11, _⟩ => ⟨S512x64x16x128, .f32⟩
  | .hbm, ⟨12, _⟩ => ⟨S_, .f32⟩
  | .hbm, ⟨13, _⟩ => ⟨S512x64x16, .f32⟩
  | .hbm, ⟨14, _⟩ => ⟨S_, .f32⟩
  | .hbm, ⟨15, _⟩ => ⟨S512x64x16, .f32⟩
  | .hbm, ⟨16, _⟩ => ⟨S512x64x16, .f32⟩
  | .hbm, ⟨17, _⟩ => ⟨S512x64x16, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  slices_S512x64x16x128x2_S512x64x16x128x1_0_0_0_0_0 : S512x64x16x128x2.Slices ![0, 0, 0, 0, 0] S512x64x16x128x1
  shapeCasts_S512x64x16x128x1_S512x64x16x128 : S512x64x16x128x1.ShapeCasts S512x64x16x128
  slices_S512x64x16x128x2_S512x64x16x128x1_0_0_0_0_1 : S512x64x16x128x2.Slices ![0, 0, 0, 0, 1] S512x64x16x128x1
  bcast_S512x128_S512x1x1x128_0_3 : S512x128.BroadcastsInDim S512x1x1x128 (![0, 3] : Fin 2 → Fin S512x1x1x128.rank)
  bcast_S512x1x1x128_S512x64x16x128_0_1_2_3 : S512x1x1x128.BroadcastsInDim S512x64x16x128 (![0, 1, 2, 3] : Fin 4 → Fin S512x64x16x128.rank)
  reducesTo_S512x64x16x128_S512x64x16_d3 : S512x64x16x128.ReducesTo [3] S512x64x16
  h_S_ : 0 < S_.numel
  bcast_S_S512x64x16 : S_.BroadcastsInDim S512x64x16 (![] : Fin 0 → Fin S512x64x16.rank)

variable [Facts₀]

class Facts : Prop extends Facts₀ where

variable [Facts]
-- ==== Proof.Spec.lean ====
/-
  The mathematics of the Gaussian-likelihood kernel, with no program in sight.

  For a batch row `b`, a component `c` and a group `g` the result is
      exp (-1/2 · Σ_f (x[b,f] - rep[b,c,g,f,0])² / rep[b,c,g,f,1]²),
  the feature `f` running over 128 values; `rep[…,0]` is the mean and `rep[…,1]` the scale of feature `f`.
  The kernel sees `rep` with its last two axes merged into 256 lanes (lane `2f` the mean, lane `2f+1` the scale),
  computes a contribution on EVERY lane, keeps only the even lanes (the odd ones are replaced by zero) and sums all 256.
  `sum_even_lanes` is the one law that joins the two: a sum over 256 lanes whose odd terms vanish is the sum over the
  128 even lanes. It holds in any additive commutative monoid, so nothing about finiteness is used.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Gaussian

open Idealize.ShloMosaic Idealize.ShloMosaic.ValueIdx

/-- The contribution of feature `f` to the quadratic form at `(b, c, g)`: the squared deviation from the mean
    over the squared scale. -/
def term (x : (⟨2, ![512, 128]⟩ : Shape).Idx → EReal) (rep : (⟨5, ![512, 64, 16, 128, 2]⟩ : Shape).Idx → EReal)
    (b : Fin 512) (c : Fin 64) (g : Fin 16) (f : Fin 128) : EReal :=
  Ideal.div ((x (ix2 b f) - rep (ix5 b c g f (0 : Fin 2))) * (x (ix2 b f) - rep (ix5 b c g f (0 : Fin 2))))
    (rep (ix5 b c g f (1 : Fin 2)) * rep (ix5 b c g f (1 : Fin 2)))

/-- The whole result array as one function of the two argument arrays. -/
def G (x : (⟨2, ![512, 128]⟩ : Shape).Idx → EReal) (rep : (⟨5, ![512, 64, 16, 128, 2]⟩ : Shape).Idx → EReal) :
    (⟨3, ![512, 64, 16]⟩ : Shape).Idx → EReal :=
  fun i => Ideal.exp (Ideal.ofBits .f32 0xBF000000#32 * ∑ f : Fin 128, term x rep (i 0) (i 1) (i 2) f)

/-- The even lane `2f` and the odd lane `2f + 1` of feature `f`. -/
abbrev evenLane (f : Fin 128) : Fin 256 := ⟨2 * f.val, by omega⟩
abbrev oddLane (f : Fin 128) : Fin 256 := ⟨2 * f.val + 1, by omega⟩

/-- A sum over the 256 lanes of terms that vanish on the odd lanes is the sum over the 128 even lanes. -/
theorem sum_even_lanes {M : Type*} [AddCommMonoid M] (h : Fin 256 → M) :
    ∑ l : Fin 256, (if l.val % 2 = 0 then h l else 0) = ∑ f : Fin 128, h (evenLane f) := by
  have key := Equiv.sum_comp (finProdFinEquiv : Fin 128 × Fin 2 ≃ Fin 256)
    (fun l : Fin 256 => if l.val % 2 = 0 then h l else 0)
  rw [← key, Fintype.sum_prod_type]
  refine Finset.sum_congr rfl fun f _ => ?_
  rw [Fin.sum_univ_two]
  have e0 : (finProdFinEquiv (f, (0 : Fin 2)) : Fin 256) = evenLane f := Fin.ext (by
    show (0 : Fin 2).val + 2 * f.val = 2 * f.val
    simp)
  have e1 : ((finProdFinEquiv (f, (1 : Fin 2)) : Fin 256)).val % 2 ≠ 0 := by
    show ((1 : Fin 2).val + 2 * f.val) % 2 ≠ 0
    simp
  rw [if_neg e1, add_zero, e0, if_pos (by show 2 * f.val % 2 = 0; omega)]

/-- The lane test the kernel makes, `(lane & 1) == 0` on 32-bit words, is the parity of the lane. -/
theorem lane_bit (l : Fin 256) :
    IntOp.cmpi .eq (IntOp.andi (BitVec.ofNat 32 l.val) 1#32) 0#32 = if l.val % 2 = 0 then 1#1 else 0#1 := by
  revert l
  decide +kernel

/-- So a select on that test is the `if` on the lane's parity. -/
theorem select_lane {α : Type} (l : Fin 256) (A B : α) :
    Scalar.select (IntOp.cmpi .eq (IntOp.andi (BitVec.ofNat 32 l.val) 1#32) 0#32) A B
      = if l.val % 2 = 0 then A else B := by
  rw [lane_bit]
  by_cases h : l.val % 2 = 0
  · rw [if_pos h, if_pos h]; exact select_one A B
  · rw [if_neg h, if_neg h]; exact select_zero A B

end Cert.Gaussian

end
-- ==== Proof.KernelPay.lean ====
/-
  The kernel body's one stored value, read at an entry of the output block.

  At block entry `(p, q, r)` the body holds, on lane `l` of 256, the contribution
      (xx[p,l] - rep[p,q,r,l])² / rep[p,q,r,l+1 mod 256]²
  (the rotation by 255 brings lane `l+1` to lane `l`), replaces it by zero on the odd lanes, sums the 256 lanes and
  takes exp of -1/2 times the sum. So the entry is exp (-1/2 · Σ_f contribution on the even lane 2f), by
  `sum_even_lanes`.
-/
import proofs.«406270_j65962107732122_4_alg».proof.Proof.Gen.KernelIdeal.Skeleton
import proofs.«406270_j65962107732122_4_alg».proof.Proof.Spec
import Idealize.ShloMosaic.Lib.Pipeline.Value
import Idealize.ShloMosaic.Lib.KernelVsHost
import Idealize.ShloMosaic.PureOps.Ideal.Laws
import Idealize.ShloMosaic.Lib.ValueIdx

noncomputable section

open scoped BigOperators

namespace Cert.KernelIdeal.Pay

open Cert.KernelIdeal Cert.KernelIdeal.Gen Idealize.ShloMosaic Idealize.ShloMosaic.ValueIdx Cert.Gaussian

/-- The lane after `l`, around the end. -/
abbrev nextLane (l : Fin 256) : Fin 256 := ⟨(l.val + 1) % 256, Nat.mod_lt _ (by decide)⟩

/-- Lane `l`'s contribution at block entry `(p, q, r)`, before the odd lanes are dropped. -/
def laneTerm (rep : S32x8x16x256.Idx → EReal) (xx : S32x256.Idx → EReal) (p : Fin 32) (q : Fin 8) (r : Fin 16) (l : Fin 256) : EReal :=
  Ideal.div ((xx (ix2 p l) - rep (ix4 p q r l)) * (xx (ix2 p l) - rep (ix4 p q r l)))
    (rep (ix4 p q r (nextLane l)) * rep (ix4 p q r (nextLane l)))

variable (v0 : S32x8x16x256.Idx → EReal) (v2 : S32x256.Idx → EReal)

/-- The row of `xx` broadcast over the block's two middle axes reads `xx[p, l]` at `(p, q, r, l)`. -/
theorem xrow_apply (p : Fin 32) (q : Fin 8) (r : Fin 16) (l : Fin 256) :
    broadcastTo S32x8x16x256 (shapeCast S32x1x1x256 (shapeCast S32x256 v2 shapeCasts_S32x256_S32x256) shapeCasts_S32x256_S32x1x1x256)
      broadcasts_S32x1x1x256_S32x8x16x256 (ix4 p q r l) = v2 (ix2 p l) := by
  refine (broadcastTo_apply _ broadcasts_S32x1x1x256_S32x8x16x256 (ix4 p q r l) (ix4 p (0 : Fin 1) (0 : Fin 1) l) (fun a => ?_)).trans ?_
  · match a with
    | ⟨0, _⟩ => show p.val = if (32 : Nat) = 1 then 0 else p.val; rw [if_neg (by decide)]
    | ⟨1, _⟩ => show 0 = if (1 : Nat) = 1 then 0 else q.val; rw [if_pos rfl]
    | ⟨2, _⟩ => show 0 = if (1 : Nat) = 1 then 0 else r.val; rw [if_pos rfl]
    | ⟨3, _⟩ => show l.val = if (256 : Nat) = 1 then 0 else l.val; rw [if_neg (by decide)]
  · refine (shapeCast_apply _ shapeCasts_S32x256_S32x1x1x256 (ix4 p (0 : Fin 1) (0 : Fin 1) l) (ix2 p l) ?_).trans ?_
    · rw [Shape.rowMajor_val_two, Shape.rowMajor_val_four]
      show p.val * 256 + l.val = ((p.val * 1 + 0) * 1 + 0) * 256 + l.val
      omega
    · rw [shapeCast_self]

/-- The rotation by 255 along the lanes reads the next lane. -/
theorem rot_apply (p : Fin 32) (q : Fin 8) (r : Fin 16) (l : Fin 256) :
    dynamicRotate 3 255#32 none (shapeCast S32x8x16x256 v0 shapeCasts_S32x8x16x256_S32x8x16x256) rotates_S32x8x16x256_d3 (ix4 p q r l)
      = v0 (ix4 p q r (nextLane l)) := by
  rw [shapeCast_self]
  refine dynamicRotate_apply (3 : Fin 4) 255#32 v0 rotates_S32x8x16x256_d3 (ix4 p q r l) (ix4 p q r (nextLane l)) (fun b => ?_)
  match b with
  | ⟨0, _⟩ => rfl
  | ⟨1, _⟩ => rfl
  | ⟨2, _⟩ => rfl
  | ⟨3, _⟩ =>
    show (l.val + 1) % 256 = if (3 : Fin 4) = 3 then (l.val + 256 - 255 % 256) % 256 else l.val
    rw [if_pos rfl]
    have := l.isLt
    omega

/-- The masked lane vector at `(p, q, r, l)`: the lane's contribution on an even lane, zero on an odd one. -/
theorem masked_apply (p : Fin 32) (q : Fin 8) (r : Fin 16) (l : Fin 256) :
    (select (cmpi .eq (andi (iota .tc S32x8x16x256 32 [3] iota_S32x8x16x256_d3_w32) (broadcast S32x8x16x256 1#32)) (broadcast S32x8x16x256 0#32))
      (divf (F := Ideal)
        (mulf (subf (broadcastTo S32x8x16x256 (shapeCast S32x1x1x256 (shapeCast S32x256 v2 shapeCasts_S32x256_S32x256) shapeCasts_S32x256_S32x1x1x256) broadcasts_S32x1x1x256_S32x8x16x256) (shapeCast S32x8x16x256 v0 shapeCasts_S32x8x16x256_S32x8x16x256))
              (subf (broadcastTo S32x8x16x256 (shapeCast S32x1x1x256 (shapeCast S32x256 v2 shapeCasts_S32x256_S32x256) shapeCasts_S32x256_S32x1x1x256) broadcasts_S32x1x1x256_S32x8x16x256) (shapeCast S32x8x16x256 v0 shapeCasts_S32x8x16x256_S32x8x16x256)))
        (mulf (dynamicRotate 3 255#32 none (shapeCast S32x8x16x256 v0 shapeCasts_S32x8x16x256_S32x8x16x256) rotates_S32x8x16x256_d3)
              (dynamicRotate 3 255#32 none (shapeCast S32x8x16x256 v0 shapeCasts_S32x8x16x256_S32x8x16x256) rotates_S32x8x16x256_d3)))
      (broadcast S32x8x16x256 (Scalar.ofBits (F := Ideal) .f32 0x00000000#32))) (ix4 p q r l)
    = if l.val % 2 = 0 then laneTerm v0 v2 p q r l else 0 := by
  rw [select_apply]
  show Scalar.select (IntOp.cmpi .eq (IntOp.andi (iota .tc S32x8x16x256 32 [3] iota_S32x8x16x256_d3_w32 (ix4 p q r l)) 1#32) 0#32) _ _ = _
  rw [iota_single_apply]
  show Scalar.select (IntOp.cmpi .eq (IntOp.andi (BitVec.ofNat 32 l.val) 1#32) 0#32) _ _ = _
  rw [select_lane]
  refine if_congr Iff.rfl ?_ ?_
  · rw [divf_apply, mulf_apply, mulf_apply, subf_apply, xrow_apply, rot_apply, shapeCast_self]
    rfl
  · show Ideal.ofBits .f32 0x00000000#32 = 0
    exact Ideal.ofBits_zero_f32

/-- THE STORED VALUE AT AN ENTRY of the output block. -/
theorem pay_apply (p : Fin 32) (q : Fin 8) (r : Fin 16) :
    k0_pay1 (F := Ideal) v0 v2 (ix3 p q r)
      = Ideal.exp (Ideal.ofBits .f32 0xBF000000#32 * ∑ f : Fin 128, laneTerm v0 v2 p q r (evenLane f)) := by
  unfold k0_pay1
  dsimp only
  refine congrArg (fun t : EReal => Ideal.exp (Ideal.ofBits .f32 0xBF000000#32 * t)) ?_
  refine (Ideal.multiReduction_add_single _ _ reduces_S32x8x16x256_S32x8x16 _ _ (ix3 p q r)).trans ?_
  refine Eq.trans (Finset.sum_congr rfl fun k _ => ?_) (sum_even_lanes (fun l => laneTerm v0 v2 p q r l))
  have hl : reduces_S32x8x16x256_S32x8x16.lift (ix3 p q r) k = ix4 p q r k := by
    funext a; refine Fin.ext ?_
    match a with
    | ⟨0, _⟩ => rfl
    | ⟨1, _⟩ => rfl
    | ⟨2, _⟩ => rfl
    | ⟨3, _⟩ => rfl
  rw [hl]
  exact masked_apply v0 v2 p q r k

end Cert.KernelIdeal.Pay

end
-- ==== Proof.KernelWhole.lean ====
/-
  From blocks to the whole result array.

  The region finds two arrays the host wrote: `rep` with its last two axes merged into 256 lanes (lane `2f + e` of
  row `(b, c, g)` is `rep[b, c, g, f, e]`), and `x` with every entry doubled (lane `2f + e` of row `b` is `x[b, f]`).
  Grid point `t` works on rows `32·I … 32·I + 31` of the batch axis and components `8·J … 8·J + 7`, where `(I, J)` is the
  block index of the output window at `t`; its input blocks sit at the same `I` (and `J`), all groups and all lanes.
  So the block entry `(p, q, r)` the body stores — exp (-1/2 · Σ_f contribution on the even lane 2f) — is the entry
  `(32·I + p, 8·J + q, r)` of `G`: on the even lane `2f` the deviation reads `x[b, f]` and the mean `rep[b, c, g, f, 0]`,
  and the lane after it, `2f + 1`, is the scale `rep[b, c, g, f, 1]`. The 16 × 8 blocks tile the array.
-/
import proofs.«406270_j65962107732122_4_alg».proof.Proof.Gen.KernelIdeal.Value
import proofs.«406270_j65962107732122_4_alg».proof.Proof.KernelPay
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Pay Cert.Gaussian
open Idealize.ShloMosaic.ValueIdx

variable (m : (ℓ : Loc nD τ sig) → Buf (Elt Ideal) ℓ) (ρ : Dev nD → PrngReg)

/-- The two arguments as launched. -/
abbrev argX (c : Dev nD) : S512x128.Idx → EReal := m ((c : Thread nD τ).loc main_arg0)
abbrev argRep (c : Dev nD) : S512x64x16x128x2.Idx → EReal := m ((c : Thread nD τ).loc main_arg1)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The two arrays the host wrote before the region -/

/-- The lane-merged array is `rep` reshaped. -/
theorem V_rep (c : Dev nD) : (V m c main_v0 : S512x64x16x256.Idx → EReal)
    = shapeCast S512x64x16x256 (argRep m c) shapeCasts_S512x64x16x128x2_S512x64x16x256 := by
  dsimp only [Gen.V, Gen.hostOps0]; after_results; rfl

/-- The doubled array is `x` broadcast along a new last axis of two, then reshaped. -/
theorem V_x (c : Dev nD) : (V m c main_v2 : S512x256.Idx → EReal)
    = shapeCast S512x256 (broadcastInDim S512x128x2 ![0, 1] bcast_S512x128_S512x128x2_0_1 (argX m c)) shapeCasts_S512x128x2_S512x256 := by
  dsimp only [Gen.V, Gen.hostOps0]; after_results; rfl

/-- Lane `2f + e` of row `(b, c, g)` of the merged array is `rep[b, c, g, f, e]`. -/
theorem V_rep_apply (c : Dev nD) (b : Fin 512) (cc : Fin 64) (g : Fin 16) (f : Fin 128) (e : Fin 2) (l : Fin 256)
    (hl : l.val = 2 * f.val + e.val) :
    (V m c main_v0 : S512x64x16x256.Idx → EReal) (ix4 b cc g l) = argRep m c (ix5 b cc g f e) := by
  rw [V_rep]
  refine shapeCast_apply _ shapeCasts_S512x64x16x128x2_S512x64x16x256 (ix4 b cc g l) (ix5 b cc g f e) ?_
  rw [Shape.rowMajor_val_five, Shape.rowMajor_val_four]
  show (((b.val * 64 + cc.val) * 16 + g.val) * 128 + f.val) * 2 + e.val = ((b.val * 64 + cc.val) * 16 + g.val) * 256 + l.val
  omega

/-- Lane `2f + e` of row `b` of the doubled array is `x[b, f]`. -/
theorem V_x_apply (c : Dev nD) (b : Fin 512) (f : Fin 128) (e : Fin 2) (l : Fin 256) (hl : l.val = 2 * f.val + e.val) :
    (V m c main_v2 : S512x256.Idx → EReal) (ix2 b l) = argX m c (ix2 b f) := by
  rw [V_x]
  refine (shapeCast_apply _ shapeCasts_S512x128x2_S512x256 (ix2 b l) (ix3 b f e) ?_).trans ?_
  · rw [Shape.rowMajor_val_three, Shape.rowMajor_val_two]
    show (b.val * 128 + f.val) * 2 + e.val = b.val * 256 + l.val
    omega
  · refine broadcastInDim_apply _ bcast_S512x128_S512x128x2_0_1 (argX m c) (ix3 b f e) (ix2 b f) (fun a => ?_)
    match a with
    | ⟨0, _⟩ => show b.val = if (512 : Nat) = 1 then 0 else b.val; rw [if_neg (by decide)]
    | ⟨1, _⟩ => show f.val = if (128 : Nat) = 1 then 0 else f.val; rw [if_neg (by decide)]

/-! ## The printed index maps, decided over the 128 grid points -/

/-- The inputs' blocks move with the output's: the same batch block, the same component block, everything else whole. -/
theorem idx_facts : ∀ t : Fin cfg0.N,
    win0_0.index t (0 : Fin 2) = win0_2.index t (0 : Fin 3) ∧ win0_0.index t (1 : Fin 2) = 0
    ∧ win0_1.index t (0 : Fin 4) = win0_2.index t (0 : Fin 3) ∧ win0_1.index t (1 : Fin 4) = win0_2.index t (1 : Fin 3)
    ∧ win0_1.index t (2 : Fin 4) = 0 ∧ win0_1.index t (3 : Fin 4) = 0
    ∧ win0_2.index t (2 : Fin 3) = 0 ∧ win0_2.index t (0 : Fin 3) < 16 ∧ win0_2.index t (1 : Fin 3) < 8 :=
  (by decide +kernel : ∀ t : Fin grid0.N, _)

/-- Every one of the 16 × 8 blocks is some point's. -/
theorem idx_onto : ∀ (q0 : Fin 16) (q1 : Fin 8), ∃ t : Fin cfg0.N, win0_2.index t = ![q0.val, q1.val, 0] :=
  (by decide +kernel : ∀ (q0 : Fin 16) (q1 : Fin 8), ∃ t : Fin grid0.N, win0_2.index t = ![q0.val, q1.val, 0])

/-! ## The input blocks at a point, as entries of the arguments -/

/-- Lane `2f + e` of row `p` of the `x` block at `t` is `x[b, f]`, `b` the row of the array under `p`. -/
theorem read_x (c : Dev nD) (t : Fin cfg0.N) (p : Fin 32) (l : Fin 256) (b : Fin 512) (f : Fin 128) (e : Fin 2)
    (hb : b.val = win0_2.index t (0 : Fin 3) * 32 + p.val) (hl : l.val = 2 * f.val + e.val) :
    (iblk m c 0 t : S32x256.Idx → EReal) (ix2 p l) = argX m c (ix2 b f) := by
  obtain ⟨e0, e1, e2, e3, e4, e5, e6, e7, e8⟩ := idx_facts t
  unfold iblk
  rw [View.read_apply]
  show (V m c main_v2 : S512x256.Idx → EReal) _ = _
  refine Eq.trans (congrArg (V m c main_v2 : S512x256.Idx → EReal) ?_) (V_x_apply m c b f e l hl)
  funext a; apply Fin.ext
  match a with
  | ⟨0, _⟩ => show win0_0.index t (0 : Fin 2) * 32 + 1 * p.val = b.val; omega
  | ⟨1, _⟩ => show win0_0.index t (1 : Fin 2) * 256 + 1 * l.val = l.val; omega

/-- Lane `2f + e` of entry `(p, q, r)` of the `rep` block at `t` is `rep[b, cc, r, f, e]`. -/
theorem read_rep (c : Dev nD) (t : Fin cfg0.N) (p : Fin 32) (q : Fin 8) (r : Fin 16) (l : Fin 256)
    (b : Fin 512) (cc : Fin 64) (f : Fin 128) (e : Fin 2)
    (hb : b.val = win0_2.index t (0 : Fin 3) * 32 + p.val) (hc : cc.val = win0_2.index t (1 : Fin 3) * 8 + q.val)
    (hl : l.val = 2 * f.val + e.val) :
    (iblk m c 1 t : S32x8x16x256.Idx → EReal) (ix4 p q r l) = argRep m c (ix5 b cc r f e) := by
  obtain ⟨e0, e1, e2, e3, e4, e5, e6, e7, e8⟩ := idx_facts t
  unfold iblk
  rw [View.read_apply]
  show (V m c main_v0 : S512x64x16x256.Idx → EReal) _ = _
  refine Eq.trans (congrArg (V m c main_v0 : S512x64x16x256.Idx → EReal) ?_) (V_rep_apply m c b cc r f e l hl)
  funext a; apply Fin.ext
  match a with
  | ⟨0, _⟩ => show win0_1.index t (0 : Fin 4) * 32 + 1 * p.val = b.val; omega
  | ⟨1, _⟩ => show win0_1.index t (1 : Fin 4) * 8 + 1 * q.val = cc.val; omega
  | ⟨2, _⟩ => show win0_1.index t (2 : Fin 4) * 16 + 1 * r.val = r.val; omega
  | ⟨3, _⟩ => show win0_1.index t (3 : Fin 4) * 256 + 1 * l.val = l.val; omega

/-- The even lane's contribution at block entry `(p, q, r)` is feature `f`'s contribution at the array entry under it. -/
theorem lane_is_term (c : Dev nD) (t : Fin cfg0.N) (p : Fin 32) (q : Fin 8) (r : Fin 16) (b : Fin 512) (cc : Fin 64)
    (hb : b.val = win0_2.index t (0 : Fin 3) * 32 + p.val) (hc : cc.val = win0_2.index t (1 : Fin 3) * 8 + q.val) (f : Fin 128) :
    laneTerm (iblk m c 1 t) (iblk m c 0 t) p q r (evenLane f) = term (argX m c) (argRep m c) b cc r f := by
  unfold laneTerm term
  rw [read_x m c t p (evenLane f) b f (0 : Fin 2) hb (by show 2 * f.val = 2 * f.val + 0; omega),
    read_rep m c t p q r (evenLane f) b cc f (0 : Fin 2) hb hc (by show 2 * f.val = 2 * f.val + 0; omega),
    read_rep m c t p q r (nextLane (evenLane f)) b cc f (1 : Fin 2) hb hc
      (by show (2 * f.val + 1) % 256 = 2 * f.val + 1; have := f.isLt; omega)]

/-! ## What a point writes back, the cover, the array -/

/-- WHAT POINT `t` WRITES BACK is block `t` of `G` of the arguments. -/
theorem flushed_eq (c : Dev nD) (t : Fin cfg0.N) :
    (dats m 0 c).flushed 2 t = ((cfg0.win 2).blk t).view.read (Elt Ideal) (G (argX m c) (argRep m c)) := by
  rw [flushed2]
  unfold out0_2
  rw [View.canon_unit_zero hz3]
  simp only [View.ld_unit_zero (S := S32x8x16x256) hz4, View.ld_unit_zero (S := S32x256) hz2]
  obtain ⟨e0, e1, e2, e3, e4, e5, e6, e7, e8⟩ := idx_facts t
  funext j
  obtain ⟨p, q, r, rfl⟩ : ∃ (p : Fin 32) (q : Fin 8) (r : Fin 16), j = ix3 p q r := ⟨j 0, j 1, j 2, eq_ix3 j⟩
  have hp := p.isLt; have hq := q.isLt
  refine Eq.trans (b := G (argX m c) (argRep m c) (ix3 (⟨win0_2.index t (0 : Fin 3) * 32 + p.val, by omega⟩ : Fin 512)
      (⟨win0_2.index t (1 : Fin 3) * 8 + q.val, by omega⟩ : Fin 64) r)) ?_ (Eq.symm ?_)
  · show k0_pay1 (F := Ideal) (iblk m c 1 t) (iblk m c 0 t) (ix3 p q r) = _
    refine (pay_apply (iblk m c 1 t) (iblk m c 0 t) p q r).trans ?_
    unfold G
    refine congrArg (fun s : EReal => Ideal.exp (Ideal.ofBits .f32 0xBF000000#32 * s)) (Finset.sum_congr rfl fun f _ => ?_)
    exact lane_is_term m c t p q r _ _ rfl rfl f
  · rw [View.read_apply]
    show G (argX m c) (argRep m c) _ = G (argX m c) (argRep m c) _
    refine congrArg (G (argX m c) (argRep m c)) ?_
    funext a; apply Fin.ext
    match a with
    | ⟨0, _⟩ => show win0_2.index t (0 : Fin 3) * 32 + 1 * p.val = win0_2.index t (0 : Fin 3) * 32 + p.val; omega
    | ⟨1, _⟩ => show win0_2.index t (1 : Fin 3) * 8 + 1 * q.val = win0_2.index t (1 : Fin 3) * 8 + q.val; omega
    | ⟨2, _⟩ => show win0_2.index t (2 : Fin 3) * 16 + 1 * r.val = r.val; omega

/-- An index of the array is in point `t`'s block iff each coordinate is in the block's range on its axis. -/
theorem mem_blk (t : Fin cfg0.N) (i : S512x64x16.Idx) :
    i ∈ ((cfg0.win 2).blk t).view.set ↔ ∀ a : Fin 3, win0_2.index t a * S32x8x16.size a ≤ (i a).val ∧ (i a).val < win0_2.index t a * S32x8x16.size a + S32x8x16.size a := by
  show i ∈ ((View.whole main_v3).slice (win0_2.rect t)).set ↔ _
  rw [View.set_slice_whole, Rect.mem_set_unit]
  exact Iff.rfl

/-- The blocks tile the array: row `b`, component `cc` lie in the block `(b / 32, cc / 8)`. -/
theorem cover (i : S512x64x16.Idx) : ∃ t : Fin cfg0.N, (cfg0.win 2).flush t = true ∧ i ∈ ((cfg0.win 2).blk t).view.set := by
  have hi0 : (i 0).val < 512 := (i 0).isLt
  have hi1 : (i 1).val < 64 := (i 1).isLt
  have hi2 : (i 2).val < 16 := (i 2).isLt
  obtain ⟨t, ht⟩ := idx_onto ⟨(i 0).val / 32, by omega⟩ ⟨(i 1).val / 8, by omega⟩
  have q0 : win0_2.index t (0 : Fin 3) = (i 0).val / 32 := congrFun ht 0
  have q1 : win0_2.index t (1 : Fin 3) = (i 1).val / 8 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 32 ≤ (i 0).val ∧ (i 0).val < win0_2.index t (0 : Fin 3) * 32 + 32; omega
  | ⟨1, _⟩ => show win0_2.index t (1 : Fin 3) * 8 ≤ (i 1).val ∧ (i 1).val < win0_2.index t (1 : Fin 3) * 8 + 8; omega
  | ⟨2, _⟩ => show win0_2.index t (2 : Fin 3) * 16 ≤ (i 2).val ∧ (i 2).val < win0_2.index t (2 : Fin 3) * 16 + 16; omega

/-- THE RESULT ARRAY after the run is `G` of the arguments. -/
theorem final (c : Dev nD) : (dats m 0 c).arrAt 2 cfg0.N = G (argX m c) (argRep m c) :=
  (dats m 0 c).arrAt_eq_of_cover 2 (G (argX m c) (argRep m c)) (fun t _ => flushed_eq m c t) cover

/-- The kernel's run, read: the result at `G` of the arguments, the arguments unchanged. -/
theorem run : θ_run defs (onTc (τ := τ) (main (F := Ideal))) ⟨m, fun _ => 0, ρ⟩ fun r => ∀ c : Dev nD,
      r.2.mem ((c : Thread nD τ).loc main_v3) = G (argX m c) (argRep m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefIsG.lean ====
/-
  The reference's result, stage by stage, is the function `G` of the two arguments.

  The reference slices the mean (`rep[…,0]`) and the scale (`rep[…,1]`) out of the last axis, subtracts the mean from
  `x` broadcast over the component and group axes, squares, divides by the squared scale, sums over the feature axis
  from zero, scales by -1/2 and takes exp. Read at an index that is `G` word for word; the only work is that the
  composed index maps of the slices, reshapes and broadcasts name the entries `x[b,f]`, `rep[b,c,g,f,0]`,
  `rep[b,c,g,f,1]`.
-/
import proofs.«406270_j65962107732122_4_alg».proof.Proof.Gen.ReferenceIdeal.Read
import proofs.«406270_j65962107732122_4_alg».proof.Proof.Spec

noncomputable section

open scoped BigOperators

namespace Cert.ReferenceIdeal.IsG

open Cert.ReferenceIdeal Cert.ReferenceIdeal.Read Idealize.ShloMosaic Idealize.ShloMosaic.ValueIdx Cert.Gaussian

variable (b : Fin 512) (c : Fin 64) (g : Fin 16) (f : Fin 128)

/-- The row of `x` the difference reads at `(b, c, g, f)` is `x[b, f]`. -/
theorem x_idx : idx_main_v4 (idx_main_v5 (idx_main_v10 (ix3 b c g) f)) = ix2 b f := by
  funext a; refine Fin.ext ?_
  match a with
  | ⟨0, _⟩ => rfl
  | ⟨1, _⟩ => rfl

/-- The mean it reads is `rep[b, c, g, f, 0]`: the reshape keeps the row-major position. -/
theorem mean_idx : idx_main_v0 (idx_main_v1 (idx_main_v10 (ix3 b c g) f)) = ix5 b c g f (0 : Fin 2) := by
  have hb := b.isLt; have hc := c.isLt; have hg := g.isLt; have hf := f.isLt
  funext a; refine Fin.ext ?_
  match a with
  | ⟨0, _⟩ => show (((b.val * 64 + c.val) * 16 + g.val) * 128 + f.val) / 131072 = b.val; omega
  | ⟨1, _⟩ => show (((b.val * 64 + c.val) * 16 + g.val) * 128 + f.val) / 2048 % 64 = c.val; omega
  | ⟨2, _⟩ => show (((b.val * 64 + c.val) * 16 + g.val) * 128 + f.val) / 128 % 16 = g.val; omega
  | ⟨3, _⟩ => show (((b.val * 64 + c.val) * 16 + g.val) * 128 + f.val) / 1 % 128 = f.val; omega
  | ⟨4, _⟩ => rfl

/-- The scale it reads is `rep[b, c, g, f, 1]`. -/
theorem scale_idx : idx_main_v2 (idx_main_v3 (idx_main_v10 (ix3 b c g) f)) = ix5 b c g f (1 : Fin 2) := by
  have hb := b.isLt; have hc := c.isLt; have hg := g.isLt; have hf := f.isLt
  funext a; refine Fin.ext ?_
  match a with
  | ⟨0, _⟩ => show (((b.val * 64 + c.val) * 16 + g.val) * 128 + f.val) / 131072 = b.val; omega
  | ⟨1, _⟩ => show (((b.val * 64 + c.val) * 16 + g.val) * 128 + f.val) / 2048 % 64 = c.val; omega
  | ⟨2, _⟩ => show (((b.val * 64 + c.val) * 16 + g.val) * 128 + f.val) / 128 % 16 = g.val; omega
  | ⟨3, _⟩ => show (((b.val * 64 + c.val) * 16 + g.val) * 128 + f.val) / 1 % 128 = f.val; omega
  | ⟨4, _⟩ => rfl

/-- The quotient stage at `(b, c, g, f)` is feature `f`'s contribution. -/
theorem quot_apply (x0 : S512x128.Idx → EReal) (x1 : S512x64x16x128x2.Idx → EReal) :
    val_main_v9 (F := Ideal) x0 x1 (idx_main_v10 (ix3 b c g) f) = term x0 x1 b c g f := by
  rw [val_main_v9_apply, val_main_v7_apply, val_main_v6_apply, val_main_v8_apply, val_main_v5_apply, val_main_v4_apply,
    val_main_v1_apply, val_main_v0_apply, val_main_v3_apply, val_main_v2_apply, x_idx, mean_idx, scale_idx]
  rfl

/-- THE REFERENCE'S RESULT IS `G`. -/
theorem result_eq (x0 : S512x128.Idx → EReal) (x1 : S512x64x16x128x2.Idx → EReal) :
    val_main_v13 (F := Ideal) x0 x1 = G x0 x1 := by
  funext i
  obtain ⟨b, c, g, rfl⟩ : ∃ (b : Fin 512) (c : Fin 64) (g : Fin 16), i = ix3 b c g := ⟨i 0, i 1, i 2, eq_ix3 i⟩
  rw [val_main_v13_apply, val_main_v12_apply, val_main_v11_apply, val_main_cst_0_apply, val_main_v10_apply, val_main_cst_apply]
  simp only [quot_apply]
  show Ideal.exp (Ideal.ofBits .f32 0xBF000000#32 * (Ideal.ofBits .f32 0x00000000#32 + ∑ k : Fin 128, term x0 x1 b c g k)) = _
  rw [Ideal.ofBits_zero_f32, zero_add]
  rfl

end Cert.ReferenceIdeal.IsG

end
-- ==== Proof.lean ====
/- The proof of `Cert.Claim`: a Gaussian likelihood with a diagonal scale, computed by one lane-interleaved kernel and by
   plain jnp, are the same function over the extended reals.

   Both compute, at batch row `b`, component `c`, group `g`,
       exp (-1/2 · Σ_f (x[b,f] - rep[b,c,g,f,0])² / rep[b,c,g,f,1]²).
   The reference slices mean and scale apart and sums over the 128 features. The kernel keeps mean and scale interleaved
   on 256 lanes, brings each scale beside its mean by a lane rotation, zeroes the odd lanes and sums all 256; a sum whose
   odd terms are zero is the sum of its even terms (Proof/Spec.lean), which needs no finiteness. The modules:
   Proof/Spec.lean (the function `G` and that law), Proof/RefIsG.lean (the reference's stages are `G`),
   Proof/KernelPay.lean (the kernel body's stored value at an entry), Proof/KernelWhole.lean (the blocks tile the array,
   so the kernel's result array is `G`). The three frames are the generated ones; nothing was rewritten by the ideal
   pass, so the idealization claim is trivial. -/
import proofs.«406270_j65962107732122_4_alg».proof.Defs
import proofs.«406270_j65962107732122_4_alg».proof.Proof.Gen.Kernel
import proofs.«406270_j65962107732122_4_alg».proof.Proof.Gen.Kernel.Skeleton
import proofs.«406270_j65962107732122_4_alg».proof.Proof.Gen.Kernel.Launch
import proofs.«406270_j65962107732122_4_alg».proof.Proof.Gen.Kernel.Points
import proofs.«406270_j65962107732122_4_alg».proof.Proof.Gen.Kernel.Frame
import proofs.«406270_j65962107732122_4_alg».proof.Proof.Gen.KernelIdeal
import proofs.«406270_j65962107732122_4_alg».proof.Proof.Gen.KernelIdeal.Skeleton
import proofs.«406270_j65962107732122_4_alg».proof.Proof.Gen.KernelIdeal.Launch
import proofs.«406270_j65962107732122_4_alg».proof.Proof.Gen.KernelIdeal.Points
import proofs.«406270_j65962107732122_4_alg».proof.Proof.Gen.KernelIdeal.Frame
import proofs.«406270_j65962107732122_4_alg».proof.Proof.Gen.ReferenceIdeal
import proofs.«406270_j65962107732122_4_alg».proof.Proof.Gen.Pre_finite_inputs
import proofs.«406270_j65962107732122_4_alg».proof.Proof.Gen.KernelIdeal.Value
import proofs.«406270_j65962107732122_4_alg».proof.Proof.Gen.ReferenceIdeal.Run
import proofs.«406270_j65962107732122_4_alg».proof.Proof.Gen.ReferenceIdeal.Read
import proofs.«406270_j65962107732122_4_alg».proof.Proof.KernelWhole
import proofs.«406270_j65962107732122_4_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's are both `G` of them. -/
theorem algebraic : Cert.algebraic_KernelIdeal_ReferenceIdeal := by
  intro m ρ m' ρ' _ hagree
  refine ⟨fun c => Cert.Gaussian.G (Cert.KernelIdeal.Whole.argX m c) (Cert.KernelIdeal.Whole.argRep m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v13_eq _ _).trans (Cert.ReferenceIdeal.IsG.result_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
